-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x262144 : Shape := ⟨2, ![512, 262144]⟩
abbrev S1x64x512x512 : Shape := ⟨4, ![1, 64, 512, 512]⟩
abbrev S_ : Shape := ⟨0, ![]⟩

class Facts : Prop where
  bcast_S_S512x262144 : S_.BroadcastsInDim S512x262144 (![] : Fin 0 → Fin S512x262144.rank)
  reducesTo_S512x262144_S_d0_1 : S512x262144.ReducesTo [0, 1] S_
  h_S_ : 0 < S_.numel
  bcast_S_S1x64x512x512 : S_.BroadcastsInDim S1x64x512x512 (![] : Fin 0 → Fin S1x64x512x512.rank)
  reducesTo_S1x64x512x512_S_d0_1_2_3 : S1x64x512x512.ReducesTo [0, 1, 2, 3] S_

variable [Facts]

def fn {F : FTy → Type} [FloatOps F] (main_arg0 : FVec F S512x262144 .f32) (main_arg1 : FVec F S1x64x512x512 .f32) : IVec S_ 1 :=
  let main_v0 : FVec F S512x262144 .f32 := Host.absf main_arg0
  let main_cst : FVec F S_ .f32 := constant S_ .f32 0x7F800000#32
  let main_v1 : FVec F S512x262144 .f32 := broadcastInDim S512x262144 ![] bcast_S_S512x262144 main_cst
  let main_v2 : IVec S512x262144 1 := cmpf .olt main_v0 main_v1
  let main_c : IVec S_ 1 := constantI S_ 1 1#1
  let main_v3 : IVec S_ 1 := (fun x v => Host.reduce IntOp.andi x v reducesTo_S512x262144_S_d0_1 h_S_) main_v2 main_c
  let main_v4 : FVec F S1x64x512x512 .f32 := Host.absf main_arg1
  let main_cst_0 : FVec F S_ .f32 := constant S_ .f32 0x7F800000#32
  let main_v5 : FVec F S1x64x512x512 .f32 := broadcastInDim S1x64x512x512 ![] bcast_S_S1x64x512x512 main_cst_0
  let main_v6 : IVec S1x64x512x512 1 := cmpf .olt main_v4 main_v5
  let main_c_1 : IVec S_ 1 := constantI S_ 1 1#1
  let main_v7 : IVec S_ 1 := (fun x v => Host.reduce IntOp.andi x v reducesTo_S1x64x512x512_S_d0_1_2_3 h_S_) main_v6 main_c_1
  let main_v8 : IVec S_ 1 := andi main_v3 main_v7
  main_v8
-- ==== Kernel.lean ====
abbrev S512x262144 : Shape := ⟨2, ![512, 262144]⟩
abbrev S1x64x512x512 : Shape := ⟨4, ![1, 64, 512, 512]⟩
abbrev S64x262144 : Shape := ⟨2, ![64, 262144]⟩
abbrev S512x64 : Shape := ⟨2, ![512, 64]⟩
abbrev S512x4096 : Shape := ⟨2, ![512, 4096]⟩
abbrev S64x4096 : Shape := ⟨2, ![64, 4096]⟩

abbrev nBuf : Space → Nat
  | .hbm => 4
  | .vmem => 6
  | .smem => 0
  | _ => 0

abbrev bufTy : (tb : Table) → Fin (tcTables nBuf tb) → BufTy
  | .hbm, ⟨0, _⟩ => ⟨S512x262144, .f32⟩
  | .hbm, ⟨1, _⟩ => ⟨S1x64x512x512, .f32⟩
  | .hbm, ⟨2, _⟩ => ⟨S64x262144, .f32⟩
  | .hbm, ⟨3, _⟩ => ⟨S512x64, .f32⟩
  | .local _ .vmem, ⟨0, _⟩ => ⟨S512x4096, .f32⟩
  | .local _ .vmem, ⟨1, _⟩ => ⟨S512x4096, .f32⟩
  | .local _ .vmem, ⟨2, _⟩ => ⟨S64x4096, .f32⟩
  | .local _ .vmem, ⟨3, _⟩ => ⟨S64x4096, .f32⟩
  | .local _ .vmem, ⟨4, _⟩ => ⟨S512x64, .f32⟩
  | .local _ .vmem, ⟨5, _⟩ => ⟨S512x64, .f32⟩
  | _, _ => ⟨S512x262144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v14 : BitVec 1 := Scalar.cmpi .eq arg0 c63_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S1x64x512x512_S64x262144 : S1x64x512x512.ShapeCasts S64x262144
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  dot_S512x4096_S64x4096_S512x64_1_1_0_0_n_n_wf : DotDims.WF S512x4096 S64x4096 S512x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S512x262144.size a
  hwx0_0 : ∀ i : grid0.Coords, EltTy.bits .f32 = 32 ∨ (Rect.block (s := S512x262144) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x262144.size a
  hwx0_1 : ∀ i : grid0.Coords, EltTy.bits .f32 = 32 ∨ (Rect.block (s := S64x262144) S64x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S512x64.size a
  hwx0_2 : ∀ i : grid0.Coords, EltTy.bits .f32 = 32 ∨ (Rect.block (s := S512x64) S512x64.size (cc0_transform_2 i) (hinb0_2 i)).WholeWords (EltTy.packing .f32)

variable [Facts₀]

def dot_S512x4096_S64x4096_S512x64_1_1_0_0_n_n : DotDims S512x4096 S64x4096 S512x64 where
  lhsContracting := [1]
  rhsContracting := [1]
  lhsNonContracting := [0]
  rhsNonContracting := [0]
  lhsBatch := []
  rhsBatch := []
  wf := dot_S512x4096_S64x4096_S512x64_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S512x262144 : Shape := ⟨2, ![512, 262144]⟩
abbrev S1x64x512x512 : Shape := ⟨4, ![1, 64, 512, 512]⟩
abbrev S64x262144 : Shape := ⟨2, ![64, 262144]⟩
abbrev S_ : Shape := ⟨0, ![]⟩
abbrev S64x512 : Shape := ⟨2, ![64, 512]⟩
abbrev S512x64 : Shape := ⟨2, ![512, 64]⟩
abbrev S64 : Shape := ⟨1, ![64]⟩
abbrev S64x1 : Shape := ⟨2, ![64, 1]⟩

abbrev nBuf : Space → Nat
  | .hbm => 13
  | .vmem => 0
  | .smem => 0
  | _ => 0

abbrev bufTy : (tb : Table) → Fin (tcTables nBuf tb) → BufTy
  | .hbm, ⟨0, _⟩ => ⟨S512x262144, .f32⟩
  | .hbm, ⟨1, _⟩ => ⟨S1x64x512x512, .f32⟩
  | .hbm, ⟨2, _⟩ => ⟨S64x262144, .f32⟩
  | .hbm, ⟨3, _⟩ => ⟨S_, .f32⟩
  | .hbm, ⟨4, _⟩ => ⟨S64x512, .f32⟩
  | .hbm, ⟨5, _⟩ => ⟨S512x64, .f32⟩
  | .hbm, ⟨6, _⟩ => ⟨S_, .f32⟩
  | .hbm, ⟨7, _⟩ => ⟨S64, .f32⟩
  | .hbm, ⟨8, _⟩ => ⟨S64x1, .f32⟩
  | .hbm, ⟨9, _⟩ => ⟨S64x512, .f32⟩
  | .hbm, ⟨10, _⟩ => ⟨S64x512, .f32⟩
  | .hbm, ⟨11, _⟩ => ⟨S512x64, .f32⟩
  | .hbm, ⟨12, _⟩ => ⟨S512x64, .f32⟩
  | _, _ => ⟨S512x262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  shapeCasts_S1x64x512x512_S64x262144 : S1x64x512x512.ShapeCasts S64x262144
  bcast_S_S64x512 : S_.BroadcastsInDim S64x512 (![] : Fin 0 → Fin S64x512.rank)
  reducesTo_S64x262144_S64_d1 : S64x262144.ReducesTo [1] S64
  h_S_ : 0 < S_.numel
  bcast_S64_S64x1_0 : S64.BroadcastsInDim S64x1 (![0] : Fin 1 → Fin S64x1.rank)
  bcast_S64x1_S64x512_0_1 : S64x1.BroadcastsInDim S64x512 (![0, 1] : Fin 2 → Fin S64x512.rank)
  transposes_S64x512_S512x64_1_0 : S64x512.Transposes [1, 0] S512x64
  dot_S512x262144_S64x262144_S512x64_1_1_0_0_n_n_wf : DotDims.WF S512x262144 S64x262144 S512x64 [1] [1] [0] [0] [] []

variable [Facts₀]

def dot_S512x262144_S64x262144_S512x64_1_1_0_0_n_n : DotDims S512x262144 S64x262144 S512x64 where
  lhsContracting := [1]
  rhsContracting := [1]
  lhsNonContracting := [0]
  rhsNonContracting := [0]
  lhsBatch := []
  rhsBatch := []
  wf := dot_S512x262144_S64x262144_S512x64_1_1_0_0_n_n_wf

class Facts : Prop extends Facts₀ where

variable [Facts]
-- ==== Proof.BlockSum.lean ====
/-
  The mathematics of the certificate, with no program in sight.

  Both programs compute, for a row `d` of `x : [512, 262144]` and a row `k` of `a : [64, 262144]`,
  the contraction `∑ n, x[d, n] · a[k, n]` over the long axis. The reference takes the sum at once.
  The kernel cuts the long axis into 64 consecutive stretches of 4096 columns, forms each stretch's
  partial contraction, and adds the 64 partial results in order, starting from zero. Addition on the
  extended reals is commutative and associative with no side condition, so regrouping a finite sum
  into consecutive stretches needs no finiteness of the entries.
-/
import Idealize.ShloMosaic.PureOps.Ideal
import Idealize.ShloMosaic.Lib.ValueIdx
import Mathlib.Algebra.BigOperators.Fin
import Mathlib.Algebra.BigOperators.Intervals

noncomputable section

open scoped BigOperators

namespace Cert.Contraction

open Idealize.ShloMosaic Idealize.ShloMosaic.ValueIdx

/-- A finite sum over `B · J` consecutive naturals is the sum, over `B` consecutive stretches of length `J`,
    of each stretch's sum. -/
theorem sum_range_mul_stretch {M : Type*} [AddCommMonoid M] (f : ℕ → M) (J : ℕ) :
    ∀ B : ℕ, ∑ n ∈ Finset.range (B * J), f n = ∑ t ∈ Finset.range B, ∑ k ∈ Finset.range J, f (t * J + k)
  | 0 => by simp
  | B + 1 => by
    rw [Nat.succ_mul, Finset.sum_range_add, sum_range_mul_stretch f J B, Finset.sum_range_succ]

/-- Column `k` of stretch `t` of the long axis (reduced modulo the axis' length, so that it is a column for every
    natural `t`; for `t < 64` the reduction changes nothing). -/
def col (t : ℕ) (k : Fin 4096) : Fin 262144 := ⟨(t * 4096 + k.val) % 262144, Nat.mod_lt _ (by norm_num)⟩

theorem col_val_of_lt {t : ℕ} (ht : t < 64) (k : Fin 4096) : (col t k).val = t * 4096 + k.val := by
  have := k.isLt
  show (t * 4096 + k.val) % 262144 = _
  exact Nat.mod_eq_of_lt (by omega)

/-- The partial contraction over stretch `t`: rows `d` of `x` and `k` of `a` multiplied column by column over the
    4096 columns of the stretch. -/
def stretchDot (x : (⟨2, ![512, 262144]⟩ : Shape).Idx → EReal) (a : (⟨2, ![64, 262144]⟩ : Shape).Idx → EReal)
    (t : ℕ) (i : (⟨2, ![512, 64]⟩ : Shape).Idx) : EReal :=
  ∑ k : Fin 4096, x (ix2 (i 0) (col t k)) * a (ix2 (i 1) (col t k))

/-- The whole contraction over the long axis. -/
def wholeDot (x : (⟨2, ![512, 262144]⟩ : Shape).Idx → EReal) (a : (⟨2, ![64, 262144]⟩ : Shape).Idx → EReal)
    (i : (⟨2, ![512, 64]⟩ : Shape).Idx) : EReal :=
  ∑ n : Fin 262144, x (ix2 (i 0) n) * a (ix2 (i 1) n)

/-- The 64 partial contractions add up to the whole one. -/
theorem sum_stretchDot (x : (⟨2, ![512, 262144]⟩ : Shape).Idx → EReal) (a : (⟨2, ![64, 262144]⟩ : Shape).Idx → EReal)
    (i : (⟨2, ![512, 64]⟩ : Shape).Idx) :
    ∑ t ∈ Finset.range 64, stretchDot x a t i = wholeDot x a i := by
  -- the summand as a function of a natural column number
  let f : ℕ → EReal := fun n =>
    x (ix2 (i 0) ⟨n % 262144, Nat.mod_lt _ (by norm_num)⟩) * a (ix2 (i 1) ⟨n % 262144, Nat.mod_lt _ (by norm_num)⟩)
  have hwhole : wholeDot x a i = ∑ n ∈ Finset.range (64 * 4096), f n := by
    rw [show (64 * 4096 : ℕ) = 262144 from by norm_num, ← Fin.sum_univ_eq_sum_range f 262144]
    refine Finset.sum_congr rfl fun n _ => ?_
    have hn : (⟨n.val % 262144, Nat.mod_lt _ (by norm_num)⟩ : Fin 262144) = n := Fin.ext (Nat.mod_eq_of_lt n.isLt)
    show _ = x (ix2 (i 0) ⟨n.val % 262144, _⟩) * a (ix2 (i 1) ⟨n.val % 262144, _⟩)
    rw [hn]
  have hstretch : ∀ t, stretchDot x a t i = ∑ k ∈ Finset.range 4096, f (t * 4096 + k) := fun t => by
    rw [← Fin.sum_univ_eq_sum_range (fun k => f (t * 4096 + k)) 4096]
    rfl
  rw [hwhole, sum_range_mul_stretch f 4096 64]
  exact Finset.sum_congr rfl fun t _ => hstretch t

/-- What the reference subtracts is nothing: the row sum of `a`, whatever it is, times zero, and a number minus zero is
    the number. -/
theorem sub_mul_zero (v s : EReal) : v - s * 0 = v := by
  rw [mul_zero, sub_zero]

end Cert.Contraction

end
-- ==== Proof.LibDotT.lean ====
/-
  A matrix product against a transposed right operand, read at an entry. For the dimension numbers "contract the left
  operand's columns with the right operand's columns, no batch axis", the vector unit's product into a zero
  accumulator is, at entry (r, c) and over the extended reals, the sum over k of x(r, k) · w(c, k).
-/
import Idealize.ShloMosaic.PureOps.Ideal
import Idealize.ShloMosaic.PureOps.Ideal.Laws
import Idealize.ShloMosaic.Lib.ValueIdx

noncomputable section

open scoped BigOperators

namespace Cert.LibDotT

open Idealize.ShloMosaic Idealize.ShloMosaic.ValueIdx

/-! ## The four coordinates of the operand indices

  With the left operand's rows the only free left axis, the right operand's rows the only free right axis and one
  shared axis (each operand's columns), the left operand is read at (row of the entry, shared coordinate) and the
  right operand at (column of the entry, shared coordinate). Each of the four coordinates is its own statement, at
  the literal axis. -/

section Axes

variable {R K C : Nat} (d : DotDims ⟨2, ![R, K]⟩ ⟨2, ![C, K]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the entry's column. -/
theorem rhs_axis0 (hln : d.lhsNonContracting = [0]) (hrn : d.rhsNonContracting = [0]) (hlb : d.lhsBatch = [])
    (hrb : d.rhsBatch = []) (j : (⟨2, ![R, C]⟩ : Shape).Idx) (k : d.contr.Idx) : (d.rhsIdx j k 0 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The right operand's column coordinate is the shared coordinate. -/
theorem rhs_axis1 (hl : d.lhsContracting = [1]) (hr : d.rhsContracting = [1]) (j : (⟨2, ![R, C]⟩ : Shape).Idx)
    (k : d.contr.Idx) : (d.rhsIdx j k 1 : ℕ) = (k ⟨0, by rw [rank_contr_one d hl]; exact Nat.one_pos⟩ : ℕ) :=
  d.rhsIdx_val_of_single hr j k

end Axes

/-- The contraction sum of a product against a transposed right operand, re-indexed by the shared axis's
    coordinate: the left operand is read at (r, k), the right one at (c, k). -/
theorem contr_sum_T {R K C : Nat} {φ₁ φ₂ : FTy} (d : DotDims ⟨2, ![R, K]⟩ ⟨2, ![C, K]⟩ ⟨2, ![R, C]⟩)
    (hl : d.lhsContracting = [1]) (hr : d.rhsContracting = [1]) (hln : d.lhsNonContracting = [0])
    (hrn : d.rhsNonContracting = [0]) (hlb : d.lhsBatch = []) (hrb : d.rhsBatch = [])
    (x : FVec Ideal ⟨2, ![R, K]⟩ φ₁) (w : FVec Ideal ⟨2, ![C, K]⟩ φ₂) (r : Fin R) (c : Fin C) :
    (∑ k : d.contr.Idx, x (d.lhsIdx (ix2 r c) k) * w (d.rhsIdx (ix2 r c) k)) = ∑ k : Fin K, x (ix2 r k) * w (ix2 c k) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 c k := by
    funext a
    match a with
    | ⟨0, _⟩ => exact Fin.ext (rhs_axis0 d hln hrn hlb hrb _ _)
    | ⟨1, _⟩ => exact Fin.ext ((rhs_axis1 d hl hr _ _).trans hk)
  rw [hx, hw]

/-- The vector unit's product against a transposed right operand into the zero accumulator, at entry (r, c). -/
theorem matmul_zero_at_T {R K C : Nat} {φ₁ φ₂ : FTy} (d : DotDims ⟨2, ![R, K]⟩ ⟨2, ![C, K]⟩ ⟨2, ![R, C]⟩)
    (hl : d.lhsContracting = [1]) (hr : d.rhsContracting = [1]) (hln : d.lhsNonContracting = [0])
    (hrn : d.rhsNonContracting = [0]) (hlb : d.lhsBatch = []) (hrb : d.rhsBatch = [])
    (prec : Option ContractPrecision) (x : FVec Ideal ⟨2, ![R, K]⟩ φ₁) (w : FVec Ideal ⟨2, ![C, K]⟩ φ₂) (r : Fin R) (c : Fin C) :
    FloatOps.matmul d prec x w (constant ⟨2, ![R, C]⟩ .f32 0x00000000#32) (ix2 r c) = ∑ k : Fin K, x (ix2 r k) * w (ix2 c k) := by
  rw [Ideal.matmul_constant_zero_apply]
  exact contr_sum_T d hl hr hln hrn hlb hrb x w r c

end Cert.LibDotT

end
-- ==== Proof.Payload.lean ====
/-
  What one grid point adds, read at an entry.

  At a grid point the body loads a [512, 4096] stretch of `x` and a [64, 4096] stretch of `a`, multiplies the first
  against the transpose of the second into a zero accumulator, and adds the product to what the carried [512, 64]
  buffer held. Over the extended reals the change of format before the product is the identity, so at entry (p, q)
  the new contents are the old entry plus `∑ k, x(p, k) · a(q, k)` over the 4096 columns of the stretch. The block
  stored at the first point, before anything is added, is zero at every entry.
-/
import proofs.«141712_j14190571946190_1_alg».proof.Proof.Gen.KernelIdeal.Skeleton
import proofs.«141712_j14190571946190_1_alg».proof.Proof.LibDotT
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The block the first point stores before accumulating is zero everywhere. -/
theorem reset_apply (i : S512x64.Idx) : k0_pay1 (F := Ideal) i = 0 := by
  unfold k0_pay1
  rw [shapeCast_self]
  exact Ideal.ofBits_zero_f32

/-- The accumulating store at entry (p, q): the old entry plus the stretch's partial contraction of row `p` of the
    `x` block with row `q` of the `a` block. -/
theorem step_apply (x0 : Vec Ideal S512x4096 .f32) (x1 : Vec Ideal S64x4096 .f32) (acc : Vec Ideal S512x64 .f32)
    (p : Fin 512) (q : Fin 64) :
    k0_pay2 x0 x1 acc (ix2 p q) = acc (ix2 p q) + ∑ k : Fin 4096, x0 (ix2 p k) * x1 (ix2 q k) := by
  unfold k0_pay2
  rw [shapeCast_self, shapeCast_self, addf_apply]
  refine congrArg (acc (ix2 p q) + ·) ?_
  exact Cert.LibDotT.matmul_zero_at_T (R := 512) (K := 4096) (C := 64)
    dot_S512x4096_S64x4096_S512x64_1_1_0_0_n_n rfl rfl rfl rfl rfl rfl none _ _ p q

end Cert.KernelIdeal.Payload

end
-- ==== Proof.Pieces.lean ====
/-
  What each of the body's three control cases leaves behind, as values.

  The body keeps a [512, 64] running block in a buffer of its own between grid points. At the first point it stores
  the zero block, reads it back and stores "zero block plus this point's product"; at every later point it stores
  "what the point before left plus this point's product"; at the last point it also copies the running block into
  the output's buffer. Each case's final contents are therefore one application of the accumulating step.
-/
import proofs.«141712_j14190571946190_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- An interior point: the running block becomes the step applied to what the point before left. -/
theorem running_B (c : Dev nD) (i : grid0.Coords) (a1 : Memref sig .tc .vmem S512x4096 .f32) (h1 : a1.IsWhole)
    (a2 : Memref sig .tc .vmem S64x4096 .f32) (h2 : a2.IsWhole) (a3 : Memref sig .tc .vmem S512x64 .f32) (h3 : a3.IsWhole)
    (a4 : Memref sig .tc .vmem S512x64 .f32) (h4 : a4.IsWhole) (hc0 : ¬cond0_0 i) (hc1 : ¬cond0_1 i)
    (x0 : Vec F S512x4096 .f32) (x1 : Vec F S64x4096 .f32) (xs0 : Vec F S512x64 .f32) :
    sout0_B_0 c i a1 h1 a2 h2 a3 h3 a4 h4 hc0 hc1 x0 x1 xs0 = k0_pay2 x0 x1 xs0 := by
  unfold sout0_B_0
  rw [View.read_writes_eq_canon _ _ _ (scover0_B_0 c i a1 h1 a2 h2 a3 h3 a4 h4 hc0 hc1 x0 x1 xs0)]
  unfold kernelRun0_B
  dsimp only
  rw [View.canon_unit_zero hz]
  simp only [View.readAt_eq_ld, h1.read_unread, h2.read_unread, h4.read_unread, View.ld_unit_zero (S := S512x4096) hz,
    View.ld_unit_zero (S := S64x4096) hz, View.ld_unit_zero (S := S512x64) hz]

/-- The last point: the running block likewise. -/
theorem running_C (c : Dev nD) (i : grid0.Coords) (a1 : Memref sig .tc .vmem S512x4096 .f32) (h1 : a1.IsWhole)
    (a2 : Memref sig .tc .vmem S64x4096 .f32) (h2 : a2.IsWhole) (a3 : Memref sig .tc .vmem S512x64 .f32) (h3 : a3.IsWhole)
    (a4 : Memref sig .tc .vmem S512x64 .f32) (h4 : a4.IsWhole) (hc0 : ¬cond0_0 i) (hc1 : cond0_1 i)
    (x0 : Vec F S512x4096 .f32) (x1 : Vec F S64x4096 .f32) (xs0 : Vec F S512x64 .f32) :
    sout0_C_0 c i a1 h1 a2 h2 a3 h3 a4 h4 hc0 hc1 x0 x1 xs0 = k0_pay2 x0 x1 xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero hz]
  simp only [View.readAt_eq_ld, h1.read_unread, h2.read_unread, h4.read_unread, View.ld_unit_zero (S := S512x4096) hz,
    View.ld_unit_zero (S := S64x4096) hz, View.ld_unit_zero (S := S512x64) hz]

/-- The last point: the output's buffer receives a copy of the running block. -/
theorem output_C (c : Dev nD) (i : grid0.Coords) (a1 : Memref sig .tc .vmem S512x4096 .f32) (h1 : a1.IsWhole)
    (a2 : Memref sig .tc .vmem S64x4096 .f32) (h2 : a2.IsWhole) (a3 : Memref sig .tc .vmem S512x64 .f32) (h3 : a3.IsWhole)
    (a4 : Memref sig .tc .vmem S512x64 .f32) (h4 : a4.IsWhole) (hc0 : ¬cond0_0 i) (hc1 : cond0_1 i)
    (x0 : Vec F S512x4096 .f32) (x1 : Vec F S64x4096 .f32) (xs0 : Vec F S512x64 .f32) :
    out0_C_2 c i a1 h1 a2 h2 a3 h3 a4 h4 hc0 hc1 x0 x1 xs0 = k0_pay2 x0 x1 xs0 := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero hz, View.readCov_unit_zero (S := S512x64) _ hz]
  simp only [View.readAt_eq_ld, h1.read_unread, h2.read_unread, h4.read_unread, View.ld_unit_zero (S := S512x4096) hz,
    View.ld_unit_zero (S := S64x4096) hz, View.ld_unit_zero (S := S512x64) hz]

/-- The first point: the zero block is stored and read back, so the running block is the step applied to it. -/
theorem running_A (c : Dev nD) (i : grid0.Coords) (a1 : Memref sig .tc .vmem S512x4096 .f32) (h1 : a1.IsWhole)
    (a2 : Memref sig .tc .vmem S64x4096 .f32) (h2 : a2.IsWhole) (a3 : Memref sig .tc .vmem S512x64 .f32) (h3 : a3.IsWhole)
    (a4 : Memref sig .tc .vmem S512x64 .f32) (h4 : a4.IsWhole) (hc0 : cond0_0 i) (hc1 : ¬cond0_1 i)
    (x0 : Vec F S512x4096 .f32) (x1 : Vec F S64x4096 .f32) :
    sout0_A_0 c i a1 h1 a2 h2 a3 h3 a4 h4 hc0 hc1 x0 x1 = k0_pay2 x0 x1 (k0_pay1 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S512x64) hz, View.readCov_unit_zero (S := S512x64) _ hz]
  simp only [View.readAt_eq_ld, h1.read_unread, h2.read_unread, View.ld_unit_zero (S := S512x4096) hz,
    View.ld_unit_zero (S := S64x4096) hz]

end Cert.KernelIdeal.Pieces

end
-- ==== Proof.Blocks.lean ====
/-
  The stretches of the two arrays that a grid point sees.

  Grid point `t` (of 64) is handed columns `4096·t … 4096·t + 4095` of `x : [512, 262144]` and of
  `a : [64, 262144]`, all rows of each. So entry (p, k) of the `x` block is `x(p, 4096·t + k)`, and entry (q, k) of
  the `a` block is `a(q, 4096·t + k)`. The array `a` is the [1, 64, 512, 512] argument re-read in row-major order as
  [64, 262144], which the program does on the host before the kernel starts.
-/
import proofs.«141712_j14190571946190_1_alg».proof.Proof.Gen.KernelIdeal.Frame
import proofs.«141712_j14190571946190_1_alg».proof.Proof.BlockSum
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Cert.Contraction

variable {F : FTy → Type} [FloatOps F]
variable (m : (ℓ : Loc nD τ sig) → Buf (Elt F) ℓ)

abbrev xblk (c : Dev nD) (t : Fin cfg0.N) : Vec F S512x4096 .f32 := iblk m c 0 t
abbrev ablk (c : Dev nD) (t : Fin cfg0.N) : Vec F S64x4096 .f32 := iblk m c 1 t
abbrev xarr (c : Dev nD) : Vec F S512x262144 .f32 := V m c main_arg0
abbrev aarr (c : Dev nD) : Vec F S64x262144 .f32 := V m c main_v0

theorem index_x : ∀ t : Fin cfg0.N, win0_0.index t 0 = 0 ∧ win0_0.index t 1 = t.val :=
  (by decide +kernel : ∀ t : Fin grid0.N, win0_0.index t 0 = 0 ∧ win0_0.index t 1 = t.val)
theorem index_a : ∀ t : Fin cfg0.N, win0_1.index t 0 = 0 ∧ win0_1.index t 1 = t.val :=
  (by decide +kernel : ∀ t : Fin grid0.N, win0_1.index t 0 = 0 ∧ win0_1.index t 1 = t.val)

theorem xblk_apply (c : Dev nD) (t : Fin cfg0.N) (p : Fin 512) (k : Fin 4096) :
    xblk m c t (ix2 p k) = xarr m c (ix2 p (col t.val k)) := by
  unfold xblk iblk
  rw [View.read_apply]
  have hi := index_x t
  have ht : t.val < 64 := lt_of_lt_of_eq t.isLt (show cfg0.N = 64 from N_0)
  show V m c main_arg0 _ = V m c main_arg0 _
  congr 1
  funext a
  apply Fin.ext
  match a with
  | ⟨0, _⟩ => show win0_0.index t 0 * 512 + 1 * p.val = p.val; rw [hi.1]; omega
  | ⟨1, _⟩ => show win0_0.index t 1 * 4096 + 1 * k.val = (col t.val k).val; rw [hi.2, col_val_of_lt ht]; omega

theorem ablk_apply (c : Dev nD) (t : Fin cfg0.N) (q : Fin 64) (k : Fin 4096) :
    ablk m c t (ix2 q k) = aarr m c (ix2 q (col t.val k)) := by
  unfold ablk iblk
  rw [View.read_apply]
  have hi := index_a t
  have ht : t.val < 64 := lt_of_lt_of_eq t.isLt (show cfg0.N = 64 from N_0)
  show V m c main_v0 _ = V m c main_v0 _
  congr 1
  funext a
  apply Fin.ext
  match a with
  | ⟨0, _⟩ => show win0_1.index t 0 * 64 + 1 * q.val = q.val; rw [hi.1]; omega
  | ⟨1, _⟩ => show win0_1.index t 1 * 4096 + 1 * k.val = (col t.val k).val; rw [hi.2, col_val_of_lt ht]; omega

theorem aarr_eq (c : Dev nD) :
    aarr m c = shapeCast S64x262144 (m ((c : Thread nD τ).loc main_arg1)) shapeCasts_S1x64x512x512_S64x262144 := by
  show V m c main_v0 = _
  dsimp only [V, hostOps0]
  after_results
  rfl

end Cert.KernelIdeal.Blocks

end
-- ==== Proof.Fold.lean ====
/-
  The kernel's result, as one function of its arguments.

  Write `X` for the [512, 262144] argument and `A` for the [64, 262144] re-reading of the other one. By the step read
  at an entry and the stretches each point sees, point `t` adds to entry (d, k) of the running block the partial
  contraction `∑ j < 4096, X(d, 4096·t + j) · A(k, 4096·t + j)`; the first point adds it to zero. So after point `n`
  the running block is `0 + ∑ s ≤ n` of the stretches' partial contractions: an induction along the grid, carried by
  the library's unrolling of an additive fold. The last point copies the running block into the output's buffer and is
  the only point whose buffer is written back; its block is the whole [512, 64] result array. Hence the result array
  ends at `0 + ∑ s < 64` of the partial contractions, which is the whole contraction over the long axis.
-/
import proofs.«141712_j14190571946190_1_alg».proof.Proof.Gen.KernelIdeal.Value
import proofs.«141712_j14190571946190_1_alg».proof.Proof.BlockSum
import proofs.«141712_j14190571946190_1_alg».proof.Proof.Payload
import proofs.«141712_j14190571946190_1_alg».proof.Proof.Pieces
import proofs.«141712_j14190571946190_1_alg».proof.Proof.Blocks
import Idealize.ShloMosaic.Lib.Pipeline.Value

noncomputable section

open scoped BigOperators

namespace Cert.KernelIdeal.Fold

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.Contraction Cert.KernelIdeal.Blocks Cert.KernelIdeal.Pieces Cert.KernelIdeal.Payload

variable (m : (ℓ : Loc nD τ sig) → Buf (Elt Ideal) ℓ) (ρ : Dev nD → PrngReg)

/-- The step at point `t`, in terms of the arrays: the old entry plus stretch `t`'s partial contraction. -/
theorem step_at (c : Dev nD) (t : Fin cfg0.N) (acc : Vec Ideal S512x64 .f32) (i : S512x64.Idx) :
    k0_pay2 (xblk m c t) (ablk m c t) acc i = acc i + stretchDot (xarr m c) (aarr m c) t.val i := by
  obtain ⟨p, q, rfl⟩ : ∃ (p : Fin 512) (q : Fin 64), i = ix2 p q := ⟨i 0, i 1, eq_ix2 i⟩
  rw [step_apply]
  refine congrArg (acc (ix2 p q) + ·) ?_
  unfold stretchDot
  refine Finset.sum_congr rfl fun k _ => ?_
  rw [xblk_apply, ablk_apply]

/-- What a point that is not the first leaves in the running block, over what the point before left. -/
theorem later_point (c : Dev nD) (n : ℕ) (hb : n < cfg0.N) (hn : 0 < n) (acc : Vec Ideal S512x64 .f32) (i : S512x64.Idx) :
    scAt0_0 m c n hb acc i = acc i + stretchDot (xarr m c) (aarr m c) n i := by
  have hN : n < 64 := lt_of_lt_of_eq hb (show cfg0.N = 64 from N_0)
  have h0 : ¬n % 64 = 0 := by omega
  unfold scAt0_0
  rw [dif_neg h0]
  by_cases h1 : n % 64 = 63
  · rw [dif_pos h1, running_C]
    exact step_at m c ⟨n, hb⟩ acc i
  · rw [dif_neg h1, running_B]
    exact step_at m c ⟨n, hb⟩ acc i

/-- What the first point leaves in the running block, whatever it held: zero plus stretch 0's partial contraction. -/
theorem first_point (c : Dev nD) (hb : 0 < cfg0.N) (acc : Vec Ideal S512x64 .f32) (i : S512x64.Idx) :
    scAt0_0 m c 0 hb acc i = 0 + stretchDot (xarr m c) (aarr m c) 0 i := by
  unfold scAt0_0
  rw [dif_pos (Nat.zero_mod 64), dif_neg (by decide), running_A]
  refine (step_at m c ⟨0, hb⟩ _ i).trans ?_
  rw [reset_apply]

/-- The running block after point `n`: zero plus the partial contractions of stretches `0 … n`. -/
theorem running_after (c : Dev nD) (n : ℕ) (hn : n < cfg0.N) (i : S512x64.Idx) :
    (outsAt0 m c n hn).2 i = 0 + ∑ s ∈ Finset.range (n + 1), stretchDot (xarr m c) (aarr m c) (0 + s) i := by
  have hN : n < 64 := lt_of_lt_of_eq hn (show cfg0.N = 64 from N_0)
  rw [soutsAt0_0_sweep m c n hn]
  exact Pipeline.accAt_add_apply (ι := S512x64.Idx) (β := EReal)
    (fun n h => scAt0_0 m c n h (VS0_0.read (Elt Ideal) VS0_0.junk)) (scAt0_0 m c) (fun _ => 0)
    (fun s i => stretchDot (xarr m c) (aarr m c) s i) 0 63
    (fun h i => first_point m c h _ i)
    (fun s h acc i hs _ => later_point m c s h hs acc i)
    n (by omega) (by omega) i

/-- The result array: the whole contraction of `X` against `A`. -/
abbrev result (c : Dev nD) : Vec Ideal S512x64 .f32 := fun i => wholeDot (xarr m c) (aarr m c) i

/-- After the last point the output's buffer holds the whole contraction. -/
theorem output_last (c : Dev nD) (h : 63 < cfg0.N) : (outsAt0 m c 63 h).1 = result m c := by
  have h0 : ¬(⟨63, h⟩ : Fin cfg0.N).val % 64 = 0 := by show ¬(63 % 64 = 0); decide
  have h1 : (⟨63, h⟩ : Fin cfg0.N).val % 64 = 63 := rfl
  have e2 : (outsAt0 m c 63 h).1 = (outsAt0 m c 63 h).2 := by
    rw [outsAt0_C m c ⟨63, h⟩ h0 h1]
    dsimp only
    rw [output_C, running_C]
  rw [e2]
  funext i
  rw [running_after m c 63 h i, zero_add]
  simp only [zero_add]
  exact sum_stretchDot (xarr m c) (aarr m c) i

end Cert.KernelIdeal.Fold

end
-- ==== Proof.KernelRun.lean ====
/-
  From the last point's buffer to the result array.

  Only the last of the 64 grid points writes the output's buffer back, and its block is the whole [512, 64] array at
  offset (0, 0). So the result array ends at exactly what that buffer holds after the last point: the whole
  contraction of `X` against `A`. Restated over the program's arguments, `X` is the first argument as launched and
  `A` the second one re-read in row-major order as [64, 262144].
-/
import proofs.«141712_j14190571946190_1_alg».proof.Proof.Fold

noncomputable section

open scoped BigOperators

namespace Cert.KernelIdeal.Fold

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.Contraction Cert.KernelIdeal.Blocks

variable (m : (ℓ : Loc nD τ sig) → Buf (Elt Ideal) ℓ) (ρ : Dev nD → PrngReg)

/-- The last grid point. -/
abbrev lastPt : Fin cfg0.N := ⟨63, by rw [show cfg0.N = 64 from N_0]; decide⟩

/-- The output's one block sits at block index (0, 0) at every point. -/
theorem index_o : ∀ t : Fin cfg0.N, win0_2.index t 0 = 0 ∧ win0_2.index t 1 = 0 :=
  (by decide +kernel : ∀ t : Fin grid0.N, win0_2.index t 0 = 0 ∧ win0_2.index t 1 = 0)

/-- The one write-back, at the last point, writes the whole contraction: its block is the whole array. -/
theorem flushed_eq (c : Dev nD) (t : Fin cfg0.N) (hf : (cfg0.win 2).flush t = true) :
    (dats m 0 c).flushed 2 t = ((cfg0.win 2).blk t).view.read (Elt Ideal) (result m c) := by
  have hN : cfg0.N = 64 := N_0
  have h63 : t.val = 63 := by have := (flush0_2 t).mp hf; have := t.isLt; omega
  have hi := index_o t
  have hz' : (fun a => win0_2.index t a * main_v1.ty.shape.size a) = fun _ => 0 := funext fun a => by
    match a with
    | ⟨0, _⟩ => show win0_2.index t 0 * _ = 0; rw [hi.1, Nat.zero_mul]
    | ⟨1, _⟩ => show win0_2.index t 1 * _ = 0; rw [hi.2, Nat.zero_mul]
  show (cfg0.win 2).cut (grid0.coords t) ((dats m 0 c).after 2 t) = _
  rw [after0_2]
  have hout : (outsAt0 m c t.val t.isLt).1 = result m c := by
    obtain ⟨n, hn⟩ := t
    dsimp only at h63
    subst h63
    exact output_last m c hn
  rw [hout]
  exact (Memref.read_access_unit_zero (Elt Ideal) main_v1 hz' (fun a => by rw [congrFun hz' a]; simp) (result m c)).symm

/-- So the result array ends holding the whole contraction: the last point's block covers it. -/
theorem final (c : Dev nD) : (dats m 0 c).arrAt 2 cfg0.N = result m c :=
  (dats m 0 c).arrAt_eq_of_cover 2 (result m c) (flushed_eq m c) fun i =>
    ⟨lastPt, (flush0_2 lastPt).mpr rfl, by
      show i ∈ ((View.whole main_v1).slice (win0_2.rect lastPt)).set
      rw [View.set_slice_whole, Rect.mem_set_unit]
      intro a
      have h0 : (i 0 : Nat) < 512 := (i 0).isLt
      have h1 : (i 1 : Nat) < 64 := (i 1).isLt
      match a with
      | ⟨0, _⟩ => show win0_2.index lastPt 0 * win0_2.size 0 ≤ (i 0 : Nat) ∧ (i 0 : Nat) < win0_2.index lastPt 0 * win0_2.size 0 + win0_2.xsize (grid0.coords lastPt) 0
                  rw [show win0_2.index lastPt 0 * win0_2.size 0 = 0 from by decide +kernel, show win0_2.xsize (grid0.coords lastPt) 0 = 512 from by decide +kernel]; omega
      | ⟨1, _⟩ => show win0_2.index lastPt 1 * win0_2.size 1 ≤ (i 1 : Nat) ∧ (i 1 : Nat) < win0_2.index lastPt 1 * win0_2.size 1 + win0_2.xsize (grid0.coords lastPt) 1
                  rw [show win0_2.index lastPt 1 * win0_2.size 1 = 0 from by decide +kernel, show win0_2.xsize (grid0.coords lastPt) 1 = 64 from by decide +kernel]; omega⟩

/-- The whole contraction over the program's arguments as launched. -/
theorem result_args (c : Dev nD) :
    result m c = fun i => wholeDot (m ((c : Thread nD τ).loc main_arg0))
      (shapeCast S64x262144 (m ((c : Thread nD τ).loc main_arg1)) shapeCasts_S1x64x512x512_S64x262144) i := by
  have hx : xarr m c = m ((c : Thread nD τ).loc main_arg0) := V_main_arg0 m c
  unfold result
  rw [hx, aarr_eq]

/-- The kernel's run: the result array at the whole contraction, the arguments unchanged. -/
theorem run : θ_run defs (onTc (τ := τ) (main (F := Ideal))) ⟨m, fun _ => 0, ρ⟩ fun r => ∀ c : Dev nD,
      r.2.mem ((c : Thread nD τ).loc main_v1) = (fun i => wholeDot (m ((c : Thread nD τ).loc main_arg0))
          (shapeCast S64x262144 (m ((c : Thread nD τ).loc main_arg1)) shapeCasts_S1x64x512x512_S64x262144) i)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (result_args m c)), (h c).2⟩) (run_blocks m ρ)

end Cert.KernelIdeal.Fold

end
-- ==== Proof.Reference.lean ====
/-
  The reference's result, as one function of its arguments.

  The reference forms the whole contraction `∑ n, X(d, n) · A(k, n)` with one product of matrices, where `A` is the
  [1, 64, 512, 512] argument re-read as [64, 262144], and subtracts from it the transpose of "row sums of `A`, each
  multiplied by an all-zero block". Whatever a row sum is, its product with zero is zero on the extended reals, and
  subtracting zero changes nothing. So the reference's result is the whole contraction.
-/
import proofs.«141712_j14190571946190_1_alg».proof.Proof.Gen.ReferenceIdeal.Read
import proofs.«141712_j14190571946190_1_alg».proof.Proof.BlockSum
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic
open Idealize.ShloMosaic.ValueIdx Cert.Contraction

/-- The left operand of the product is read at (row of the entry, shared column). -/
theorem left_index (i : S512x64.Idx) (k : Fin 262144) : lidx_main_v2 i k = ix2 (i 0) k :=
  funext fun a => by match a with | ⟨0, _⟩ => rfl | ⟨1, _⟩ => rfl

/-- The right operand of the product is read at (column of the entry, shared column). -/
theorem right_index (i : S512x64.Idx) (k : Fin 262144) : ridx_main_v2 i k = ix2 (i 1) k :=
  funext fun a => by match a with | ⟨0, _⟩ => rfl | ⟨1, _⟩ => rfl

/-- The reference's result is the whole contraction of `X` against the re-read `A`. -/
theorem result_eq (x0 : (⟨S512x262144, .f32⟩ : BufTy).Contents (Elt Ideal))
    (x1 : (⟨S1x64x512x512, .f32⟩ : BufTy).Contents (Elt Ideal)) :
    val_main_v8 (F := Ideal) x0 x1 = fun i => wholeDot x0 (val_main_v0 (F := Ideal) x1) i := by
  funext i
  rw [val_main_v8_apply, val_main_v2_apply, val_main_v7_apply, val_main_v6_apply, val_main_v1_apply, val_main_cst_apply]
  simp only [left_index, right_index, Ideal.subf_def, Ideal.mulf_def, Ideal.ofBits_def, Ideal.ofBits_zero_f32]
  exact sub_mul_zero _ _

end Cert.ReferenceIdeal.RefValue

end
-- ==== Proof.lean ====
/-
  The kernel against its reference: `V[d, k] = ∑ n, x[d, n] · a[k, n]` over the 262144 columns.

  The kernel walks the long axis in 64 stretches of 4096 columns. It keeps a [512, 64] running block, sets it to
  zero at the first stretch, adds each stretch's partial contraction `x_stretch · a_stretchᵀ`, and after the last
  stretch copies the running block to the output. Read over the extended reals (where the narrowing of the operands
  before the product is the identity), the output is `0 + ∑ t < 64, ∑ j < 4096, x[d, 4096 t + j] · a[k, 4096 t + j]`.
  The reference takes the whole contraction at once and subtracts `(∑ n, a[k, n]) · 0`, which is zero. Regrouping a
  finite sum of extended reals into consecutive stretches needs only that addition is commutative and associative, so
  the two results agree entry by entry for all inputs; the finiteness precondition is not used.

  The frames of the two kernel programs are the generated ones; the reference's frame is its generated run with the
  result dropped. The ideal pass rewrote nothing, so there is nothing to preserve.
-/
import proofs.«141712_j14190571946190_1_alg».proof.Defs
import proofs.«141712_j14190571946190_1_alg».proof.Proof.Gen.Kernel
import proofs.«141712_j14190571946190_1_alg».proof.Proof.Gen.Kernel.Skeleton
import proofs.«141712_j14190571946190_1_alg».proof.Proof.Gen.Kernel.Launch
import proofs.«141712_j14190571946190_1_alg».proof.Proof.Gen.Kernel.Points
import proofs.«141712_j14190571946190_1_alg».proof.Proof.Gen.Kernel.Frame
import proofs.«141712_j14190571946190_1_alg».proof.Proof.Gen.KernelIdeal
import proofs.«141712_j14190571946190_1_alg».proof.Proof.Gen.KernelIdeal.Skeleton
import proofs.«141712_j14190571946190_1_alg».proof.Proof.Gen.KernelIdeal.Launch
import proofs.«141712_j14190571946190_1_alg».proof.Proof.Gen.KernelIdeal.Points
import proofs.«141712_j14190571946190_1_alg».proof.Proof.Gen.KernelIdeal.Frame
import proofs.«141712_j14190571946190_1_alg».proof.Proof.Gen.ReferenceIdeal
import proofs.«141712_j14190571946190_1_alg».proof.Proof.Gen.Pre_finite_inputs
import proofs.«141712_j14190571946190_1_alg».proof.Proof.Gen.KernelIdeal.Value
import proofs.«141712_j14190571946190_1_alg».proof.Proof.Gen.ReferenceIdeal.Run
import proofs.«141712_j14190571946190_1_alg».proof.Proof.Gen.ReferenceIdeal.Read
import proofs.«141712_j14190571946190_1_alg».proof.Proof.KernelRun
import proofs.«141712_j14190571946190_1_alg».proof.Proof.Reference
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the whole contraction of the first argument against the re-read second one, taken of
    arguments that agree. -/
theorem algebraic : Cert.algebraic_KernelIdeal_ReferenceIdeal := by
  intro m ρ m' ρ' _ hagree
  refine ⟨_, Cert.KernelIdeal.Fold.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
